-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S4096x256 : Shape := ⟨2, ![4096, 256]⟩
abbrev S256 : Shape := ⟨1, ![256]⟩
abbrev S512x256 : Shape := ⟨2, ![512, 256]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x256 .f32) (main_arg5 : FVec F S512x256 .f32) (main_arg6 : FVec F S256 .f32) (main_arg7 : FVec F S4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4096x512 .f32) (main_arg2 : FVec F S4096x256 .f32) (main_arg3 : FVec F S256 .f32) (main_arg4 : FVec F S4096x256 .f32) (main_arg5 : FVec F S512x256 .f32) (main_arg6 : FVec F S256 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S4096x4096 : Shape := ⟨2, ![4096, 4096]⟩
abbrev S4096x512 : Shape := ⟨2, ![4096, 512]⟩
abbrev S4096x256 : Shape := ⟨2, ![4096, 256]⟩
abbrev S256 : Shape := ⟨1, ![256]⟩
abbrev S512x256 : Shape := ⟨2, ![512, 256]⟩
abbrev S4096 : Shape := ⟨1, ![4096]⟩
abbrev S1x256 : Shape := ⟨2, ![1, 256]⟩
abbrev S1x4096 : Shape := ⟨2, ![1, 4096]⟩
abbrev S256x4096 : Shape := ⟨2, ![256, 4096]⟩
abbrev S256x512 : Shape := ⟨2, ![256, 512]⟩
abbrev S256x256 : Shape := ⟨2, ![256, 256]⟩
abbrev S256x1024 : Shape := ⟨2, ![256, 1024]⟩
abbrev S1x1024 : Shape := ⟨2, ![1, 1024]⟩

abbrev nBuf : Space → Nat
  | .hbm => 17
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x256, .f32⟩
  | .hbm, ⟨3, _⟩ => ⟨S256, .f32⟩
  | .hbm, ⟨4, _⟩ => ⟨S4096x256, .f32⟩
  | .hbm, ⟨5, _⟩ => ⟨S512x256, .f32⟩
  | .hbm, ⟨6, _⟩ => ⟨S256, .f32⟩
  | .hbm, ⟨7, _⟩ => ⟨S4096, .f32⟩
  | .hbm, ⟨8, _⟩ => ⟨S1x256, .f32⟩
  | .hbm, ⟨9, _⟩ => ⟨S1x256, .f32⟩
  | .hbm, ⟨10, _⟩ => ⟨S4096, .f32⟩
  | .hbm, ⟨11, _⟩ => ⟨S1x4096, .f32⟩
  | .hbm, ⟨12, _⟩ => ⟨S4096x256, .bf16⟩
  | .hbm, ⟨13, _⟩ => ⟨S512x256, .bf16⟩
  | .hbm, ⟨14, _⟩ => ⟨S256x4096, .f32⟩
  | .hbm, ⟨15, _⟩ => ⟨S256x4096, .bf16⟩
  | .hbm, ⟨16, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x512, .f32⟩
  | .local _ .vmem, ⟨3, _⟩ => ⟨S256x512, .f32⟩
  | .local _ .vmem, ⟨4, _⟩ => ⟨S4096x256, .bf16⟩
  | .local _ .vmem, ⟨5, _⟩ => ⟨S512x256, .bf16⟩
  | .local _ .vmem, ⟨6, _⟩ => ⟨S1x256, .f32⟩
  | .local _ .vmem, ⟨7, _⟩ => ⟨S1x256, .f32⟩
  | .local _ .vmem, ⟨8, _⟩ => ⟨S256x4096, .bf16⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  shapeCasts_S4096_S1x4096 : S4096.ShapeCasts S1x4096
  bitsLt_bf16_f32 : FTy.bits .bf16 < FTy.bits .f32
  transposes_S4096x256_S256x4096_1_0 : S4096x256.Transposes [1, 0] S256x4096
  inb_S256x4096_S256x4096_0_0 : ∀ a, (![0, 0] : Fin 2 → Nat) a + S256x4096.size a ≤ S256x4096.size a
  h_S256x4096 : 0 < S256x4096.numel
  inb_S256x512_S256x512_0_0 : ∀ a, (![0, 0] : Fin 2 → Nat) a + S256x512.size a ≤ S256x512.size a
  h_S256x512 : 0 < S256x512.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x4096_S256x1024_0_0 : ∀ a, (![0, 0] : Fin 2 → Nat) a + S256x1024.size a ≤ S256x4096.size a
  h_S256x1024 : 0 < S256x1024.numel
  shapeCasts_S256x1024_S256x1024 : S256x1024.ShapeCasts S256x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S256x4096_S256x1024_0_1024 : ∀ a, (![0, 1024] : Fin 2 → Nat) a + S256x1024.size a ≤ S256x4096.size a
  inb_S1x4096_S1x1024_0_1024 : ∀ a, (![0, 1024] : Fin 2 → Nat) a + S1x1024.size a ≤ S1x4096.size a
  inb_S256x4096_S256x1024_0_2048 : ∀ a, (![0, 2048] : Fin 2 → Nat) a + S256x1024.size a ≤ S256x4096.size a
  inb_S1x4096_S1x1024_0_2048 : ∀ a, (![0, 2048] : Fin 2 → Nat) a + S1x1024.size a ≤ S1x4096.size a
  inb_S256x4096_S256x1024_0_3072 : ∀ a, (![0, 3072] : Fin 2 → Nat) a + S256x1024.size a ≤ S256x4096.size a
  inb_S1x4096_S1x1024_0_3072 : ∀ a, (![0, 3072] : Fin 2 → Nat) a + S1x1024.size a ≤ S1x4096.size a
  dot_S256x4096_S4096x256_S256x256_1_0_0_1_n_n_wf : DotDims.WF S256x4096 S4096x256 S256x256 [1] [0] [0] [1] [] []
  dot_S256x512_S512x256_S256x256_1_0_0_1_n_n_wf : DotDims.WF S256x512 S512x256 S256x256 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .f32 = 32 ∨ (Rect.block (s := S4096x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .bf16 = 32 ∨ (Rect.block (s := S4096x256) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S256x4096.size a
  hwx0_6 : ∀ i : grid0.Coords, EltTy.bits .bf16 = 32 ∨ (Rect.block (s := S256x4096) S256x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4096.size a ≤ S4096x4096.size a
  hwx0_8 : ∀ i : grid0.Coords, EltTy.bits .f32 = 32 ∨ (Rect.block (s := S4096x4096) S256x4096.size (cc0_transform_8 i) (hinb0_8 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x512 : Shape := ⟨2, ![4096, 512]⟩
abbrev S4096x256 : Shape := ⟨2, ![4096, 256]⟩
abbrev S256 : Shape := ⟨1, ![256]⟩
abbrev S512x256 : Shape := ⟨2, ![512, 256]⟩
abbrev S4096 : Shape := ⟨1, ![4096]⟩
abbrev S1x256 : Shape := ⟨2, ![1, 256]⟩
abbrev S_ : Shape := ⟨0, ![]⟩
abbrev S256x4096 : Shape := ⟨2, ![256, 4096]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x512, .f32⟩
  | .hbm, ⟨2, _⟩ => ⟨S4096x256, .f32⟩
  | .hbm, ⟨3, _⟩ => ⟨S256, .f32⟩
  | .hbm, ⟨4, _⟩ => ⟨S4096x256, .f32⟩
  | .hbm, ⟨5, _⟩ => ⟨S512x256, .f32⟩
  | .hbm, ⟨6, _⟩ => ⟨S256, .f32⟩
  | .hbm, ⟨7, _⟩ => ⟨S4096, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S1x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S256x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  transposes_S4096x256_S256x4096_1_0 : S4096x256.Transposes [1, 0] S256x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x4096_S4096x4096_1_0_0_1_n_n_wf : DotDims.WF S4096x256 S256x4096 S4096x4096 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Spec.lean ====
/-
  The function both programs compute, read over the extended reals.

  A batch row `b` of `x` is projected to rank 256 through `U`; rank coordinate `r` of the projection is scaled by
  `s r` times a gate computed from the same row of the context, `logistic (ctx[b,:] · W[:,r] + β r)`; the scaled
  coordinates are carried to 4096 units through `Vt` (the second factor, given rank-major), a bias row is added, and
  what is negative is cut at zero:

    out[b,u] = max ((∑ r, ((∑ n, x[b,n] · U[n,r]) · (s r · logistic ((∑ k, ctx[b,k] · W[k,r]) + β r))) · Vt[r,u]) + bias u) 0.

  Row `b` of the result depends on row `b` of `x` and of `ctx` only, so the same definition, at another number of rows,
  is what a tile of rows computes from its rows of `x` and `ctx` and the whole of the other six arrays. The scale, the
  gate's offset and the bias come as one-row matrices, as the tile reads them.
-/
import Idealize.ShloMosaic.PureOps.Ideal
import Idealize.ShloMosaic.Lib.ValueIdx

noncomputable section

open scoped BigOperators

namespace Cert.GatedLowRank

open Idealize.ShloMosaic Idealize.ShloMosaic.ValueIdx

/-- The gate of row `b` at rank coordinate `r`: the logistic function of the row's context against column `r` of `W`,
    offset by `β r`. -/
def gate {nb : Nat} (ctx : (⟨2, ![nb, 512]⟩ : Shape).Idx → EReal) (W : (⟨2, ![512, 256]⟩ : Shape).Idx → EReal)
    (β : (⟨2, ![1, 256]⟩ : Shape).Idx → EReal) (b : Fin nb) (r : Fin 256) : EReal :=
  Ideal.logistic ((∑ k : Fin 512, ctx (ix2 b k) * W (ix2 k r)) + β (ix2 (0 : Fin 1) r))

/-- Rank coordinate `r` of row `b` after the projection through `U`, the scale and the gate. -/
def core {nb : Nat} (x : (⟨2, ![nb, 4096]⟩ : Shape).Idx → EReal) (ctx : (⟨2, ![nb, 512]⟩ : Shape).Idx → EReal)
    (U : (⟨2, ![4096, 256]⟩ : Shape).Idx → EReal) (W : (⟨2, ![512, 256]⟩ : Shape).Idx → EReal)
    (s β : (⟨2, ![1, 256]⟩ : Shape).Idx → EReal) (b : Fin nb) (r : Fin 256) : EReal :=
  (∑ n : Fin 4096, x (ix2 b n) * U (ix2 n r)) * (s (ix2 (0 : Fin 1) r) * gate ctx W β b r)

/-- The layer's result on `nb` rows, entry by entry. -/
def rowsValue {nb : Nat} (x : (⟨2, ![nb, 4096]⟩ : Shape).Idx → EReal) (ctx : (⟨2, ![nb, 512]⟩ : Shape).Idx → EReal)
    (U : (⟨2, ![4096, 256]⟩ : Shape).Idx → EReal) (W : (⟨2, ![512, 256]⟩ : Shape).Idx → EReal)
    (s β : (⟨2, ![1, 256]⟩ : Shape).Idx → EReal) (Vt : (⟨2, ![256, 4096]⟩ : Shape).Idx → EReal)
    (bias : (⟨2, ![1, 4096]⟩ : Shape).Idx → EReal) : (⟨2, ![nb, 4096]⟩ : Shape).Idx → EReal :=
  fun i => max ((∑ r : Fin 256, core x ctx U W s β (i 0) r * Vt (ix2 r (i 1))) + bias (ix2 (0 : Fin 1) (i 1))) 0

/-- The result at row `b` and unit `u`. -/
theorem rowsValue_apply {nb : Nat} (x : (⟨2, ![nb, 4096]⟩ : Shape).Idx → EReal) (ctx : (⟨2, ![nb, 512]⟩ : Shape).Idx → EReal)
    (U : (⟨2, ![4096, 256]⟩ : Shape).Idx → EReal) (W : (⟨2, ![512, 256]⟩ : Shape).Idx → EReal)
    (s β : (⟨2, ![1, 256]⟩ : Shape).Idx → EReal) (Vt : (⟨2, ![256, 4096]⟩ : Shape).Idx → EReal)
    (bias : (⟨2, ![1, 4096]⟩ : Shape).Idx → EReal) (b : Fin nb) (u : Fin 4096) :
    rowsValue x ctx U W s β Vt bias (ix2 b u)
      = max ((∑ r : Fin 256, core x ctx U W s β b r * Vt (ix2 r u)) + bias (ix2 (0 : Fin 1) u)) 0 := rfl

/-- The result on a tile of rows is the tile of the result: rows `b₀ + p` of `x` and `ctx` give rows `b₀ + p` of the
    result, whatever the other rows hold. Stated entry by entry: if tile row `p` of `x'` and `ctx'` is row `b` of `x` and
    `ctx`, then tile row `p` of the tile's result is row `b` of the whole result. -/
theorem rowsValue_row {nb nb' : Nat} (x : (⟨2, ![nb, 4096]⟩ : Shape).Idx → EReal) (ctx : (⟨2, ![nb, 512]⟩ : Shape).Idx → EReal)
    (x' : (⟨2, ![nb', 4096]⟩ : Shape).Idx → EReal) (ctx' : (⟨2, ![nb', 512]⟩ : Shape).Idx → EReal)
    (U : (⟨2, ![4096, 256]⟩ : Shape).Idx → EReal) (W : (⟨2, ![512, 256]⟩ : Shape).Idx → EReal)
    (s β : (⟨2, ![1, 256]⟩ : Shape).Idx → EReal) (Vt : (⟨2, ![256, 4096]⟩ : Shape).Idx → EReal)
    (bias : (⟨2, ![1, 4096]⟩ : Shape).Idx → EReal) (p : Fin nb') (b : Fin nb) (u : Fin 4096)
    (hx : ∀ n : Fin 4096, x' (ix2 p n) = x (ix2 b n)) (hc : ∀ k : Fin 512, ctx' (ix2 p k) = ctx (ix2 b k)) :
    rowsValue x' ctx' U W s β Vt bias (ix2 p u) = rowsValue x ctx U W s β Vt bias (ix2 b u) := by
  rw [rowsValue_apply, rowsValue_apply]
  have hcore : ∀ r : Fin 256, core x' ctx' U W s β p r = core x ctx U W s β b r := fun r => by
    unfold core gate
    simp only [hx, hc]
  simp only [hcore]

end Cert.GatedLowRank

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.TileBody.lean ====
/-
  What one grid point's tile computes, over the extended reals: the layer's function on the tile's 256 rows.

  The body forms the tile's rank-256 rows once — the rows of `x` against `U`, times the scale times the logistic gate
  of the rows of the context against `W` — and then fills its [256, 4096] result in four slabs of 1024 units, slab `j`
  from columns `1024 j … 1024 j + 1023` of `Vt` and of the bias row: each slab is the product of the rank-256 rows with
  that slice of `Vt`, plus that slice of the bias, cut at zero. A changed float format is the identity here, and the
  products are plain sums (`Cert.Lib.PlainProduct`), so entry `(p, o + q)` of slab offset `o` is entry `(p, o + q)` of
  `Cert.GatedLowRank.rowsValue` of the eight blocks; the four slabs tile the result, so the whole tile is that function.
-/
import proofs.«419687_j73426760892513_3_alg».proof.Proof.Gen.KernelIdeal.Frame
import proofs.«419687_j73426760892513_3_alg».proof.Proof.Spec
import proofs.«419687_j73426760892513_3_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx
open Cert.GatedLowRank Cert.Lib.PlainProduct

/-- The body's three products are plain matrix products. -/
theorem plain_xU : IsPlain dot_S256x4096_S4096x256_S256x256_1_0_0_1_n_n := ⟨rfl, rfl, rfl, rfl, rfl, rfl⟩
theorem plain_cW : IsPlain dot_S256x512_S512x256_S256x256_1_0_0_1_n_n := ⟨rfl, rfl, rfl, rfl, rfl, rfl⟩
theorem plain_tV : IsPlain dot_S256x256_S256x1024_S256x1024_1_0_0_1_n_n := ⟨rfl, rfl, rfl, rfl, rfl, rfl⟩

theorem hz : (![0, 0] : Fin 2 → Nat) = fun _ => 0 := funext fun a => by fin_cases a <;> rfl

/-- The tile's rank-256 rows: entry `(p, r)` is the projection of row `p` through column `r` of `U`, times the scale
    at `r`, times the gate of row `p` at `r`. -/
theorem scaled_apply (v0 : FVec Ideal S256x4096 .f32) (v2 : FVec Ideal S256x512 .f32) (v4 : FVec Ideal S4096x256 .bf16)
    (v6 : FVec Ideal S512x256 .bf16) (v10 v15 : FVec Ideal S1x256 .f32) (p r : Fin 256) :
    k0_pay4 (F := Ideal) v0 v2 v4 v6 v10 v15 (ix2 p r) = core v0 v2 v4 v6 v15 v10 p r := by
  unfold k0_pay4 core gate
  simp only [shapeCast_self]
  show FloatOps.matmul (F := Ideal) _ none _ _ (constant S256x256 .f32 0x00000000#32) (ix2 p r)
      * (broadcastTo S256x256 v15 _ (ix2 p r)
        * Ideal.logistic (FloatOps.matmul (F := Ideal) _ none _ _ (constant S256x256 .f32 0x00000000#32) (ix2 p r)
            + broadcastTo S256x256 v10 _ (ix2 p r))) = _
  rw [matmul_zero_apply plain_xU, matmul_zero_apply plain_cW, broadcastTo_1b_ab_apply, broadcastTo_1b_ab_apply]
  rfl

/-- A slab's rectangle of columns `o … o + c - 1` of an `[R, C]` buffer places its entry `(a, q)` at `(a, o + q)`. -/
theorem cols_emb {R C c : Nat} (o : Nat)
    (inb : ∀ a, (![0, o] : Fin 2 → Nat) a + (![R, c] : Fin 2 → Nat) a ≤ (⟨2, ![R, C]⟩ : Shape).size a)
    (a : Fin R) (q : Fin c) (h : o + q.val < C) :
    (Rect.unit (s := ⟨2, ![R, C]⟩) ![0, o] ![R, c] inb).emb (ix2 a q) = ix2 a ⟨o + q.val, h⟩ :=
  funext fun d => Fin.ext (by
    match d with
    | ⟨0, _⟩ => show 0 + 1 * a.val = a.val; omega
    | ⟨1, _⟩ => show o + 1 * q.val = o + q.val; omega)

/-- One slab: from the rank-256 rows, columns `o …` of `Vt` and of the bias row, entry `(p, q)` of the slab is entry
    `(p, o + q)` of the layer's function of the eight blocks. -/
theorem slab_apply (o : Nat)
    (inbV : ∀ a, (![0, o] : Fin 2 → Nat) a + S256x1024.size a ≤ S256x4096.size a)
    (inbB : ∀ a, (![0, o] : Fin 2 → Nat) a + S1x1024.size a ≤ S1x4096.size a)
    (x0 : FVec Ideal S256x4096 .f32) (x1 : FVec Ideal S256x512 .f32) (x2 : FVec Ideal S4096x256 .bf16)
    (x3 : FVec Ideal S512x256 .bf16) (x4 x5 : FVec Ideal S1x256 .f32) (x6 : FVec Ideal S256x4096 .bf16)
    (x7 : FVec Ideal S1x4096 .f32) (p : Fin 256) (q : Fin 1024) (h : o + q.val < 4096) :
    maximumf (addf (matmul (φ₁ := .bf16) (φ₂ := .bf16) dot_S256x256_S256x1024_S256x1024_1_0_0_1_n_n none (k0_pay4 (F := Ideal) x0 x1 x2 x3 x5 x4)
          (View.ld (Val := Elt Ideal) (e' := .bf16) x6 (Rect.unit (s := S256x4096) ![0, o] S256x1024.size inbV) : FVec Ideal S256x1024 .bf16) (constant S256x1024 .f32 0x00000000#32))
        (broadcastTo S256x1024 (View.ld (Val := Elt Ideal) (e' := .f32) x7 (Rect.unit (s := S1x4096) ![0, o] S1x1024.size inbB) : FVec Ideal S1x1024 .f32) broadcasts_S1x1024_S256x1024))
      (broadcast S256x1024 (Scalar.ofBits (F := Ideal) .f32 0x00000000#32)) (ix2 p q)
    = rowsValue (nb := 256) x0 x1 x2 x3 x4 x5 x6 x7 (ix2 p ⟨o + q.val, h⟩) := by
  rw [rowsValue_apply]
  show max (FloatOps.matmul (F := Ideal) _ none _ _ (constant S256x1024 .f32 0x00000000#32) (ix2 p q)
      + broadcastTo S256x1024 _ _ (ix2 p q)) (Ideal.ofBits .f32 0x00000000#32) = _
  rw [matmul_zero_apply plain_tV, broadcastTo_1b_ab_apply, Ideal.ofBits_zero_f32]
  have hV : ∀ r : Fin 256, View.ld (Val := Elt Ideal) (e' := .bf16) x6 (Rect.unit (s := S256x4096) ![0, o] S256x1024.size inbV) (ix2 r q) = x6 (ix2 r ⟨o + q.val, h⟩) :=
    fun r => congrArg x6 (cols_emb o inbV r q h)
  have hB : View.ld (Val := Elt Ideal) (e' := .f32) x7 (Rect.unit (s := S1x4096) ![0, o] S1x1024.size inbB) (ix2 (0 : Fin 1) q) = x7 (ix2 (0 : Fin 1) ⟨o + q.val, h⟩) :=
    congrArg x7 (cols_emb o inbB 0 q h)
  simp only [hV, hB, scaled_apply]

/-- THE TILE: what the body leaves in the result's buffer, from the eight blocks, is the layer's function of them on
    the tile's 256 rows. -/
theorem tile_eq (x0 : FVec Ideal S256x4096 .f32) (x1 : FVec Ideal S256x512 .f32) (x2 : FVec Ideal S4096x256 .bf16)
    (x3 : FVec Ideal S512x256 .bf16) (x4 x5 : FVec Ideal S1x256 .f32) (x6 : FVec Ideal S256x4096 .bf16)
    (x7 : FVec Ideal S1x4096 .f32) :
    out0_8 (F := Ideal) x0 x1 x2 x3 x4 x5 x6 x7 = rowsValue (nb := 256) x0 x1 x2 x3 x4 x5 x6 x7 := by
  funext y
  unfold out0_8
  refine View.canon_apply_of_pieces (Val := Elt Ideal) (S := S256x4096) (e := .f32) (rowsValue (nb := 256) x0 x1 x2 x3 x4 x5 x6 x7) _ ?_ y (cover0_8 _ _ _ _ y)
  intro pc hpc x
  simp only [List.mem_cons, List.not_mem_nil, or_false] at hpc
  simp only [View.ld_unit_zero (S := S256x4096) hz, View.ld_unit_zero (S := S256x512) hz, View.ld_unit_zero (S := S4096x256) hz,
    View.ld_unit_zero (S := S512x256) hz, View.ld_unit_zero (S := S1x256) hz] at hpc
  rcases hpc with rfl | rfl | rfl | rfl
  · obtain ⟨p, q, rfl⟩ : ∃ (p : Fin 256) (q : Fin 1024), x = ix2 p q := ⟨x 0, x 1, eq_ix2 x⟩
    have hq : 3072 + q.val < 4096 := by have := q.isLt; omega
    rw [show r0_11.emb (ix2 p q) = ix2 p ⟨3072 + q.val, hq⟩ from cols_emb 3072 _ p q hq]
    unfold k0_pay3
    simp only [shapeCast_self]
    exact slab_apply 3072 _ _ x0 x1 x2 x3 x4 x5 x6 x7 p q hq
  · obtain ⟨p, q, rfl⟩ : ∃ (p : Fin 256) (q : Fin 1024), x = ix2 p q := ⟨x 0, x 1, eq_ix2 x⟩
    have hq : 2048 + q.val < 4096 := by have := q.isLt; omega
    rw [show r0_9.emb (ix2 p q) = ix2 p ⟨2048 + q.val, hq⟩ from cols_emb 2048 _ p q hq]
    unfold k0_pay2
    simp only [shapeCast_self]
    exact slab_apply 2048 _ _ x0 x1 x2 x3 x4 x5 x6 x7 p q hq
  · obtain ⟨p, q, rfl⟩ : ∃ (p : Fin 256) (q : Fin 1024), x = ix2 p q := ⟨x 0, x 1, eq_ix2 x⟩
    have hq : 1024 + q.val < 4096 := by have := q.isLt; omega
    rw [show r0_7.emb (ix2 p q) = ix2 p ⟨1024 + q.val, hq⟩ from cols_emb 1024 _ p q hq]
    unfold k0_pay1 k0_pay6
    simp only [shapeCast_self]
    exact slab_apply 1024 _ _ x0 x1 x2 x3 x4 x5 x6 x7 p q hq
  · obtain ⟨p, q, rfl⟩ : ∃ (p : Fin 256) (q : Fin 1024), x = ix2 p q := ⟨x 0, x 1, eq_ix2 x⟩
    have hq : 0 + q.val < 4096 := by have := q.isLt; omega
    rw [show r0_5.emb (ix2 p q) = ix2 p ⟨0 + q.val, hq⟩ from cols_emb 0 _ p q hq]
    unfold k0_pay5
    simp only [shapeCast_self]
    exact slab_apply 0 _ _ x0 x1 x2 x3 x4 x5 x6 x7 p q hq

end Cert.KernelIdeal.Tile

end
-- ==== Proof.Prepared.lean ====
/-
  The six arrays the host prepares for the region, read at an entry in terms of the arguments.

  Before the region @main casts `U` and `W` to bf16, views the scale `S` and the offset `B` as one-row matrices,
  transposes `V` and casts it to bf16, and adds the bias to itself and views the sum as a one-row matrix. Over the
  extended reals a change of float format is the identity, so entry by entry: the two casts hold `U` and `W`; the two
  one-row views hold `S r` and `B r` at `(0, r)`; the transposed cast holds `V (u, r)` at `(r, u)`; and the bias row holds
  `bias u + bias u` at `(0, u)`.
-/
import proofs.«419687_j73426760892513_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Prepared

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The six arguments the host prepares, … -/
abbrev argU (c : Dev nD) : FVec Ideal S4096x256 .f32 := m ((c : Thread nD τ).loc main_arg2)
abbrev argW (c : Dev nD) : FVec Ideal S512x256 .f32 := m ((c : Thread nD τ).loc main_arg5)
abbrev argS (c : Dev nD) : FVec Ideal S256 .f32 := m ((c : Thread nD τ).loc main_arg3)
abbrev argB (c : Dev nD) : FVec Ideal S256 .f32 := m ((c : Thread nD τ).loc main_arg6)
abbrev argV (c : Dev nD) : FVec Ideal S4096x256 .f32 := m ((c : Thread nD τ).loc main_arg4)
abbrev argBias (c : Dev nD) : FVec Ideal S4096 .f32 := m ((c : Thread nD τ).loc main_arg7)
/-- … and what the region finds prepared from them. -/
abbrev castU (c : Dev nD) : FVec Ideal S4096x256 .bf16 := V m c main_v4
abbrev castW (c : Dev nD) : FVec Ideal S512x256 .bf16 := V m c main_v5
abbrev scaleRow (c : Dev nD) : FVec Ideal S1x256 .f32 := V m c main_v0
abbrev offsetRow (c : Dev nD) : FVec Ideal S1x256 .f32 := V m c main_v1
abbrev transposedV (c : Dev nD) : FVec Ideal S256x4096 .bf16 := V m c main_v7
abbrev biasRow (c : Dev nD) : FVec Ideal S1x4096 .f32 := V m c main_v3

/-- `U` cast to bf16 holds `U`. -/
theorem castU_entry (c : Dev nD) (n : Fin 4096) (r : Fin 256) : castU m c (ix2 n r) = argU m c (ix2 n r) := by
  have e : castU m c = truncf (F := Ideal) .bf16 (argU m c) bitsLt_bf16_f32 := by
    show V m c main_v4 = _
    dsimp only [V, hostOps0]; after_results <;> rfl
  rw [e]; rfl

/-- `W` cast to bf16 holds `W`. -/
theorem castW_entry (c : Dev nD) (k : Fin 512) (r : Fin 256) : castW m c (ix2 k r) = argW m c (ix2 k r) := by
  have e : castW m c = truncf (F := Ideal) .bf16 (argW m c) bitsLt_bf16_f32 := by
    show V m c main_v5 = _
    dsimp only [V, hostOps0]; after_results <;> rfl
  rw [e]; rfl

/-- The scale as a one-row matrix holds `S r` at `(0, r)`. -/
theorem scaleRow_entry (c : Dev nD) (r : Fin 256) : scaleRow m c (ix2 (0 : Fin 1) r) = argS m c (ix1 r) := by
  have e : scaleRow m c = shapeCast S1x256 (argS m c) shapeCasts_S256_S1x256 := by
    show V m c main_v0 = _
    dsimp only [V, hostOps0]; after_results <;> rfl
  rw [e]; exact shapeCast_a_1a_apply _ _ 0 r

/-- The gate's offset as a one-row matrix holds `B r` at `(0, r)`. -/
theorem offsetRow_entry (c : Dev nD) (r : Fin 256) : offsetRow m c (ix2 (0 : Fin 1) r) = argB m c (ix1 r) := by
  have e : offsetRow m c = shapeCast S1x256 (argB m c) shapeCasts_S256_S1x256 := by
    show V m c main_v1 = _
    dsimp only [V, hostOps0]; after_results <;> rfl
  rw [e]; exact shapeCast_a_1a_apply _ _ 0 r

/-- `V` transposed and cast to bf16 holds `V (u, r)` at `(r, u)`. -/
theorem transposedV_entry (c : Dev nD) (r : Fin 256) (u : Fin 4096) : transposedV m c (ix2 r u) = argV m c (ix2 u r) := by
  have e : transposedV m c
      = truncf (F := Ideal) .bf16 (transpose S256x4096 [1, 0] (argV m c) transposes_S4096x256_S256x4096_1_0) bitsLt_bf16_f32 := by
    show V m c main_v7 = _
    dsimp only [V, hostOps0]; after_results <;> rfl
  rw [e]
  exact transpose_ix2_apply _ _ r u

/-- The bias row holds `bias u + bias u` at `(0, u)`. -/
theorem biasRow_entry (c : Dev nD) (u : Fin 4096) :
    biasRow m c (ix2 (0 : Fin 1) u) = argBias m c (ix1 u) + argBias m c (ix1 u) := by
  have e : biasRow m c = shapeCast S1x4096 (addf (F := Ideal) (argBias m c) (argBias m c)) shapeCasts_S4096_S1x4096 := by
    show V m c main_v3 = _
    dsimp only [V, hostOps0]; after_results <;> rfl
  rw [e, shapeCast_a_1a_apply]; rfl

end Cert.KernelIdeal.Prepared

end
-- ==== Proof.Blocks.lean ====
/-
  From the tiles to the whole result, over the extended reals.

  Grid point `t` of 16 reads rows `256 t … 256 t + 255` of `x` and of the context and the whole of the six prepared
  arrays, and writes back rows `256 t … 256 t + 255` of the result. What it writes is the layer's function of its blocks
  (`Cert.KernelIdeal.Tile.tile_eq`), and a row of that function depends on the same row of `x` and of the context only
  (`Cert.GatedLowRank.rowsValue_row`): so point `t` writes exactly rows `256 t …` of the layer's function of the whole
  arrays. The 16 row blocks cover the result (row `b` lies in block `b / 256`), so after the run the result array is
  that function.
-/
import proofs.«419687_j73426760892513_3_alg».proof.Proof.Gen.KernelIdeal.Value
import proofs.«419687_j73426760892513_3_alg».proof.Proof.TileBody
import proofs.«419687_j73426760892513_3_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.GatedLowRank

variable (m : (ℓ : Loc nD τ sig) → Buf (Elt Ideal) ℓ) (ρ : Dev nD → PrngReg)

/-- The result array after the run: the layer's function of `x`, the context, and the six prepared arrays as the region
    finds them. -/
abbrev result (c : Dev nD) : S4096x4096.Idx → EReal :=
  rowsValue (nb := 4096) (m ((c : Thread nD τ).loc main_arg0)) (m ((c : Thread nD τ).loc main_arg1))
    (V m c main_v4) (V m c main_v5) (V m c main_v0) (V m c main_v1) (V m c main_v7) (V m c main_v3)

/-- The printed index maps, decided over the 16 grid points: the row blocks of `x`, of the context and of the result
    move with the point; the six prepared arrays are read whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The blocks a point reads -/

/-- Row `p` of the block of `x` at point `t` is row `256 t + p` of `x`. -/
theorem rows_x (c : Dev nD) (t : Fin cfg0.N) (p : Fin 256) (n : Fin 4096) (h : 256 * t.val + p.val < 4096) :
    (iblk m c 0 t : S256x4096.Idx → EReal) (ix2 p n)
      = (m ((c : Thread nD τ).loc main_arg0) : S4096x4096.Idx → EReal) (ix2 ⟨256 * t.val + p.val, h⟩ n) := by
  obtain ⟨e00, e01, -⟩ := idx_facts t
  show V m c main_arg0 (((cfg0.win 0).blk t).view.emb (ix2 p n)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 4096 + 1 * n.val = n.val; omega

/-- Row `p` of the block of the context at point `t` is row `256 t + p` of the context. -/
theorem rows_ctx (c : Dev nD) (t : Fin cfg0.N) (p : Fin 256) (k : Fin 512) (h : 256 * t.val + p.val < 4096) :
    (iblk m c 1 t : S256x512.Idx → EReal) (ix2 p k)
      = (m ((c : Thread nD τ).loc main_arg1) : S4096x512.Idx → EReal) (ix2 ⟨256 * t.val + p.val, h⟩ k) := by
  obtain ⟨-, -, e10, e11, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 512 + 1 * k.val = k.val; omega

/-- Each of the six prepared arrays is read whole at every point. -/
theorem whole_U (c : Dev nD) (t : Fin cfg0.N) : (iblk m c 2 t : S4096x256.Idx → EReal) = V m c main_v4 := by
  obtain ⟨-, -, -, -, e0, e1, -⟩ := idx_facts t
  funext y
  show V m c main_v4 (((cfg0.win 2).blk t).view.emb y) = V m c main_v4 y
  refine congrArg _ (funext fun a => Fin.ext ?_)
  match a with
  | ⟨0, _⟩ => show win0_2.index t (0 : Fin 2) * 4096 + 1 * (y 0).val = (y 0).val; omega
  | ⟨1, _⟩ => show win0_2.index t (1 : Fin 2) * 256 + 1 * (y 1).val = (y 1).val; omega
theorem whole_W (c : Dev nD) (t : Fin cfg0.N) : (iblk m c 3 t : S512x256.Idx → EReal) = V m c main_v5 := by
  obtain ⟨-, -, -, -, -, -, e0, e1, -⟩ := idx_facts t
  funext y
  show V m c main_v5 (((cfg0.win 3).blk t).view.emb y) = V m c main_v5 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 256 + 1 * (y 1).val = (y 1).val; omega
theorem whole_scale (c : Dev nD) (t : Fin cfg0.N) : (iblk m c 4 t : S1x256.Idx → EReal) = V m c main_v0 := by
  obtain ⟨-, -, -, -, -, -, -, -, e0, e1, -⟩ := idx_facts t
  funext y
  show V m c main_v0 (((cfg0.win 4).blk t).view.emb y) = V m c main_v0 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem whole_offset (c : Dev nD) (t : Fin cfg0.N) : (iblk m c 5 t : S1x256.Idx → EReal) = V m c main_v1 := by
  obtain ⟨-, -, -, -, -, -, -, -, -, -, e0, e1, -⟩ := idx_facts t
  funext y
  show V m c main_v1 (((cfg0.win 5).blk t).view.emb y) = V m c main_v1 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega
theorem whole_Vt (c : Dev nD) (t : Fin cfg0.N) : (iblk m c 6 t : S256x4096.Idx → EReal) = V m c main_v7 := by
  obtain ⟨-, -, -, -, -, -, -, -, -, -, -, -, e0, e1, -⟩ := idx_facts t
  funext y
  show V m c main_v7 (((cfg0.win 6).blk t).view.emb y) = V m c main_v7 y
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 4096 + 1 * (y 1).val = (y 1).val; omega
theorem whole_bias (c : Dev nD) (t : Fin cfg0.N) : (iblk m c 7 t : S1x4096.Idx → EReal) = V m c main_v3 := by
  obtain ⟨-, -, -, -, -, -, -, -, -, -, -, -, -, -, e0, e1, -⟩ := idx_facts t
  funext y
  show V m c main_v3 (((cfg0.win 7).blk t).view.emb y) = V m c main_v3 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 4096 + 1 * (y 1).val = (y 1).val; omega

/-! ## What a point writes back, the cover, and the run -/

/-- WHAT POINT `t` WRITES BACK is rows `256 t … 256 t + 255` of `result`. -/
theorem flushed_eq (c : Dev nD) (t : Fin cfg0.N) :
    (dats m 0 c).flushed 8 t = ((cfg0.win 8).blk t).view.read (Elt Ideal) (result m c) := by
  have hN : cfg0.N = 16 := N_0
  have ht : t.val < 16 := hN ▸ t.isLt
  obtain ⟨-, -, -, -, -, -, -, -, -, -, -, -, -, -, -, -, e80, e81⟩ := idx_facts t
  rw [Value.flushed8, Tile.tile_eq]
  funext y
  obtain ⟨p, u, rfl⟩ : ∃ (p : Fin 256) (u : Fin 4096), y = ix2 p u := ⟨y 0, y 1, eq_ix2 y⟩
  have hp : 256 * t.val + p.val < 4096 := by have := p.isLt; omega
  show rowsValue (nb := 256) (iblk m c 0 t) (iblk m c 1 t) (iblk m c 2 t) (iblk m c 3 t) (iblk m c 4 t) (iblk m c 5 t)
      (iblk m c 6 t) (iblk m c 7 t) (ix2 p u) = result m c (((cfg0.win 8).blk t).view.emb (ix2 p u))
  rw [show ((cfg0.win 8).blk t).view.emb (ix2 p u) = ix2 (⟨256 * t.val + p.val, hp⟩ : Fin 4096) u from
    funext fun a => Fin.ext (by
      match a with
      | ⟨0, _⟩ => show win0_8.index t (0 : Fin 2) * 256 + 1 * p.val = 256 * t.val + p.val; omega
      | ⟨1, _⟩ => show win0_8.index t (1 : Fin 2) * 4096 + 1 * u.val = u.val; omega)]
  rw [whole_U, whole_W, whole_scale, whole_offset, whole_Vt, whole_bias]
  exact rowsValue_row _ _ _ _ _ _ _ _ _ _ p ⟨256 * t.val + p.val, hp⟩ u (fun n => rows_x m c t p n hp) (fun k => rows_ctx m c t p k hp)

/-- An entry of the result array is in point `t`'s block iff its row is among the block's 256 rows. -/
theorem mem_blk (t : Fin cfg0.N) (i : S4096x4096.Idx) :
    i ∈ ((cfg0.win 8).blk t).view.set ↔ ∀ a : Fin 2, win0_8.index t a * S256x4096.size a ≤ (i a).val
      ∧ (i a).val < win0_8.index t a * S256x4096.size a + S256x4096.size a := by
  show i ∈ ((View.whole main_v8).slice (win0_8.rect t)).set ↔ _
  rw [View.set_slice_whole, Rect.mem_set_unit]
  exact Iff.rfl

/-- The 16 row blocks cover the result: row `b` lies in the block of point `b / 256`. -/
theorem cover (i : S4096x4096.Idx) : ∃ t : Fin cfg0.N, (cfg0.win 8).flush t = true ∧ i ∈ ((cfg0.win 8).blk t).view.set := by
  have hN : cfg0.N = 16 := N_0
  have hi0 : (i 0).val < 4096 := (i 0).isLt
  have hi1 : (i 1).val < 4096 := (i 1).isLt
  obtain ⟨t, ht⟩ : ∃ t : Fin cfg0.N, t.val = (i 0).val / 256 := ⟨⟨(i 0).val / 256, by rw [hN]; omega⟩, rfl⟩
  obtain ⟨-, -, -, -, -, -, -, -, -, -, -, -, -, -, -, -, e80, e81⟩ := idx_facts t
  refine ⟨t, flush0_8 t, ?_⟩
  rw [mem_blk]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 4096 ≤ (i 1).val ∧ (i 1).val < win0_8.index t (1 : Fin 2) * 4096 + 4096; omega

/-- THE RESULT ARRAY after the run is the layer's function of `x`, the context and the prepared arrays. -/
theorem final (c : Dev nD) : (dats m 0 c).arrAt 8 cfg0.N = result m c :=
  (dats m 0 c).arrAt_eq_of_cover 8 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference computes the layer's function.

  The reference forms, for every batch row, the context against `W` plus the offset, the logistic of it written out
  as `1 / (1 + exp (-z))`, the row of `x` against `U` times the scale times that gate, the product of those rank-256
  rows with `V` transposed, adds the bias twice, one addition after the other, and takes the maximum with zero. Over
  the extended reals `1 / (1 + exp (-z))` is the logistic function by definition, the host's products are plain sums,
  and `(a + b) + b = a + (b + b)` because addition of extended reals is associative. So the reference's result is
  `Cert.GatedLowRank.rowsValue` on all 4096 rows, of any eight arrays that agree entry by entry with the arguments as
  the reference reads them: `U` and `W` themselves, the scale and the offset as one-row matrices, `V` with its two
  axes exchanged, and the bias row holding `bias + bias`.
-/
import proofs.«419687_j73426760892513_3_alg».proof.Proof.Gen.ReferenceIdeal.Read
import proofs.«419687_j73426760892513_3_alg».proof.Proof.Spec
import Idealize.ShloMosaic.Lib.ValueIdx
import Idealize.ShloMosaic.PureOps.Ideal.Laws
import Idealize.ShloMosaic.PureOps.IdealRules

noncomputable section

open scoped BigOperators

namespace Cert.ReferenceIdeal.Layer

open Cert.ReferenceIdeal Cert.ReferenceIdeal.Read Idealize.ShloMosaic Idealize.ShloMosaic.ValueIdx Cert.GatedLowRank

/-! ## Where each operation reads its operands, in coordinates -/

theorem lidx16 (b u : Fin 4096) (r : Fin 256) : lidx_main_v16 (ix2 b u) r = ix2 b r :=
  funext fun a => match a with | ⟨0, _⟩ => rfl | ⟨1, _⟩ => rfl
theorem ridx16 (b u : Fin 4096) (r : Fin 256) : ridx_main_v16 (ix2 b u) r = ix2 r u :=
  funext fun a => match a with | ⟨0, _⟩ => rfl | ⟨1, _⟩ => rfl
theorem lidx10 (b : Fin 4096) (r : Fin 256) (n : Fin 4096) : lidx_main_v10 (ix2 b r) n = ix2 b n :=
  funext fun a => match a with | ⟨0, _⟩ => rfl | ⟨1, _⟩ => rfl
theorem ridx10 (b : Fin 4096) (r : Fin 256) (n : Fin 4096) : ridx_main_v10 (ix2 b r) n = ix2 n r :=
  funext fun a => match a with | ⟨0, _⟩ => rfl | ⟨1, _⟩ => rfl
theorem lidx0 (b : Fin 4096) (r : Fin 256) (k : Fin 512) : lidx_main_v0 (ix2 b r) k = ix2 b k :=
  funext fun a => match a with | ⟨0, _⟩ => rfl | ⟨1, _⟩ => rfl
theorem ridx0 (b : Fin 4096) (r : Fin 256) (k : Fin 512) : ridx_main_v0 (ix2 b r) k = ix2 k r :=
  funext fun a => match a with | ⟨0, _⟩ => rfl | ⟨1, _⟩ => rfl
/-- A row vector of 256 entries spread over the batch rows reads its entry `r` … -/
theorem row256 (b : Fin 4096) (r : Fin 256) : idx_main_v1 (idx_main_v2 (ix2 b r)) = ix1 r :=
  funext fun a => match a with | ⟨0, _⟩ => rfl
/-- … and one of 4096 entries its entry `u`. -/
theorem row4096 (b u : Fin 4096) : idx_main_v17 (idx_main_v18 (ix2 b u)) = ix1 u :=
  funext fun a => match a with | ⟨0, _⟩ => rfl
/-- `V` transposed reads `V` with the coordinates exchanged. -/
theorem idx15 (r : Fin 256) (u : Fin 4096) : idx_main_v15 (ix2 r u) = ix2 u r :=
  funext fun a => match a with | ⟨0, _⟩ => rfl | ⟨1, _⟩ => rfl

/-- The word `0x3F800000` is the number one. -/
theorem one_f32 : Ideal.ofBits .f32 0x3F800000#32 = 1 := IdealRules.sign_bit.ideal_onePat .f32

/-- THE REFERENCE's result is the layer's function of the arguments as it reads them. -/
theorem result_eq (x0 : (⟨S4096x4096, .f32⟩ : BufTy).Contents (Elt Ideal)) (x1 : (⟨S4096x512, .f32⟩ : BufTy).Contents (Elt Ideal))
    (x2 : (⟨S4096x256, .f32⟩ : BufTy).Contents (Elt Ideal)) (x3 : (⟨S256, .f32⟩ : BufTy).Contents (Elt Ideal))
    (x4 : (⟨S4096x256, .f32⟩ : BufTy).Contents (Elt Ideal)) (x5 : (⟨S512x256, .f32⟩ : BufTy).Contents (Elt Ideal))
    (x6 : (⟨S256, .f32⟩ : BufTy).Contents (Elt Ideal)) (x7 : (⟨S4096, .f32⟩ : BufTy).Contents (Elt Ideal))
    (U : (⟨2, ![4096, 256]⟩ : Shape).Idx → EReal) (W : (⟨2, ![512, 256]⟩ : Shape).Idx → EReal)
    (s β : (⟨2, ![1, 256]⟩ : Shape).Idx → EReal) (Vt : (⟨2, ![256, 4096]⟩ : Shape).Idx → EReal)
    (bias : (⟨2, ![1, 4096]⟩ : Shape).Idx → EReal)
    (hU : ∀ (n : Fin 4096) (r : Fin 256), U (ix2 n r) = x2 (ix2 n r))
    (hW : ∀ (k : Fin 512) (r : Fin 256), W (ix2 k r) = x5 (ix2 k r))
    (hs : ∀ r : Fin 256, s (ix2 (0 : Fin 1) r) = x3 (ix1 r))
    (hβ : ∀ r : Fin 256, β (ix2 (0 : Fin 1) r) = x6 (ix1 r))
    (hV : ∀ (r : Fin 256) (u : Fin 4096), Vt (ix2 r u) = x4 (ix2 u r))
    (hb : ∀ u : Fin 4096, bias (ix2 (0 : Fin 1) u) = x7 (ix1 u) + x7 (ix1 u)) :
    val_main_v23 (F := Ideal) x0 x1 x2 x3 x4 x5 x6 x7 = rowsValue (nb := 4096) x0 x1 U W s β Vt bias := by
  funext i
  obtain ⟨b, u, rfl⟩ : ∃ (b u : Fin 4096), i = ix2 b u := ⟨i 0, i 1, eq_ix2 i⟩
  rw [rowsValue_apply]
  unfold core gate
  simp only [hU, hW, hs, hβ, hV, hb]
  simp only [val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_call0_v0_apply, val_main_call0_cst_apply]
  simp only [lidx16, ridx16, lidx10, ridx10, lidx0, ridx0, idx15]
  simp only [show ∀ r : Fin 256, idx_main_v11 (idx_main_v12 (ix2 b r)) = ix1 r from fun r => row256 b r,
    row256, row4096, show idx_main_v20 (idx_main_v21 (ix2 b u)) = ix1 u from row4096 b u]
  simp only [Ideal.ofBits_def, Ideal.maximumf_def, Ideal.addf_def, Ideal.mulf_def, Ideal.hostDivf_def, Ideal.hostUnary_exp_def,
    Ideal.hostNegf_def, Ideal.negf_def, one_f32, Ideal.ofBits_zero_f32, Ideal.logistic, add_assoc]

end Cert.ReferenceIdeal.Layer

end
-- ==== Proof.lean ====
/-
  A context-gated low-rank layer, fused into one kernel over tiles of 256 batch rows, against its plain reference:
  equal results over the extended reals.

  Both programs compute, for batch row `b` and unit `u`,

    out[b,u] = max ((∑ r, ((∑ n, x[b,n] · U[n,r]) · (S r · logistic ((∑ k, ctx[b,k] · W[k,r]) + B r))) · V[u,r])
                     + (bias u + bias u)) 0.

  The kernel side: the host casts `U`, `W` and the transposed `V` to bf16 (the identity on extended reals), views `S` and
  `B` as one-row matrices and prepares the row `bias + bias` (Prepared); a grid point computes the function on its 256 rows,
  filling its result in four slabs of 1024 units (TileBody, over the plain products of LibPlainProduct); the 16 row blocks
  cover the result (Blocks). The reference side: it spells the logistic function as `1 / (1 + exp (-z))`, which is its
  definition here, and adds the bias in two steps, `(a + bias) + bias`, which is `a + (bias + bias)` because addition of
  extended reals is associative (RefValue). No step divides, cancels or distributes, so the finiteness of the inputs is
  never used: the equality holds at the infinities too.

  The three programs run, without a fault and leaving their arguments as they were: the two kernels by their frames, the
  reference by its run. The idealization rewrote nothing, so there is nothing to preserve beyond the text itself.
-/
import proofs.«419687_j73426760892513_3_alg».proof.Defs
import proofs.«419687_j73426760892513_3_alg».proof.Proof.Gen.Kernel
import proofs.«419687_j73426760892513_3_alg».proof.Proof.Gen.Kernel.Skeleton
import proofs.«419687_j73426760892513_3_alg».proof.Proof.Gen.Kernel.Launch
import proofs.«419687_j73426760892513_3_alg».proof.Proof.Gen.Kernel.Points
import proofs.«419687_j73426760892513_3_alg».proof.Proof.Gen.Kernel.Frame
import proofs.«419687_j73426760892513_3_alg».proof.Proof.Gen.KernelIdeal
import proofs.«419687_j73426760892513_3_alg».proof.Proof.Gen.KernelIdeal.Skeleton
import proofs.«419687_j73426760892513_3_alg».proof.Proof.Gen.KernelIdeal.Launch
import proofs.«419687_j73426760892513_3_alg».proof.Proof.Gen.KernelIdeal.Points
import proofs.«419687_j73426760892513_3_alg».proof.Proof.Gen.KernelIdeal.Frame
import proofs.«419687_j73426760892513_3_alg».proof.Proof.Gen.ReferenceIdeal
import proofs.«419687_j73426760892513_3_alg».proof.Proof.Gen.Pre_finite_inputs
import proofs.«419687_j73426760892513_3_alg».proof.Proof.Gen.KernelIdeal.Value
import proofs.«419687_j73426760892513_3_alg».proof.Proof.Gen.ReferenceIdeal.Run
import proofs.«419687_j73426760892513_3_alg».proof.Proof.Gen.ReferenceIdeal.Read
import proofs.«419687_j73426760892513_3_alg».proof.Proof.Spec
import proofs.«419687_j73426760892513_3_alg».proof.Proof.LibPlainProduct
import proofs.«419687_j73426760892513_3_alg».proof.Proof.TileBody
import proofs.«419687_j73426760892513_3_alg».proof.Proof.Prepared
import proofs.«419687_j73426760892513_3_alg».proof.Proof.Blocks
import proofs.«419687_j73426760892513_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eight arguments, the kernel's result array ends at the layer's function of `x`, the
    context and the six prepared arrays, and the reference's at its own term, which is the same function of arrays that
    agree with the prepared ones entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  refine (Cert.ReferenceIdeal.Read.val_main_v23_eq (F := Ideal) _ _ _ _ _ _ _ _).trans ?_
  refine (Cert.ReferenceIdeal.Layer.result_eq _ _ _ _ _ _ _ _
    (Cert.KernelIdeal.Prepared.castU m c) (Cert.KernelIdeal.Prepared.castW m c) (Cert.KernelIdeal.Prepared.scaleRow m c)
    (Cert.KernelIdeal.Prepared.offsetRow m c) (Cert.KernelIdeal.Prepared.transposedV m c) (Cert.KernelIdeal.Prepared.biasRow m c)
    (fun n r => ?_) (fun k r => ?_) (fun r => ?_) (fun r => ?_) (fun r u => ?_) (fun u => ?_)).trans ?_
  · rw [a2]; exact Cert.KernelIdeal.Prepared.castU_entry m c n r
  · rw [a5]; exact Cert.KernelIdeal.Prepared.castW_entry m c k r
  · rw [a3]; exact Cert.KernelIdeal.Prepared.scaleRow_entry m c r
  · rw [a6]; exact Cert.KernelIdeal.Prepared.offsetRow_entry m c r
  · rw [a4]; exact Cert.KernelIdeal.Prepared.transposedV_entry m c r u
  · rw [a7]; exact Cert.KernelIdeal.Prepared.biasRow_entry m c u
  · rw [a0, a1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
